-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x4 : Shape := ⟨3, ![8, 16384, 4]⟩
abbrev S512x4 : Shape := ⟨2, ![512, 4]⟩
abbrev S_ : Shape := ⟨0, ![]⟩

class Facts : Prop where
  bcast_S_S8x16384x4 : S_.BroadcastsInDim S8x16384x4 (![] : Fin 0 → Fin S8x16384x4.rank)
  reducesTo_S8x16384x4_S_d0_1_2 : S8x16384x4.ReducesTo [0, 1, 2] S_
  h_S_ : 0 < S_.numel
  bcast_S_S512x4 : S_.BroadcastsInDim S512x4 (![] : Fin 0 → Fin S512x4.rank)
  reducesTo_S512x4_S_d0_1 : S512x4.ReducesTo [0, 1] S_

variable [Facts]

def fn {F : FTy → Type} [FloatOps F] (main_arg0 : FVec F S8x16384x4 .f32) (main_arg1 : FVec F S8x16384x4 .f32) (main_arg2 : FVec F S512x4 .f32) : IVec S_ 1 :=
  let main_v0 : FVec F S8x16384x4 .f32 := Host.absf main_arg0
  let main_cst : FVec F S_ .f32 := constant S_ .f32 0x7F800000#32
  let main_v1 : FVec F S8x16384x4 .f32 := broadcastInDim S8x16384x4 ![] bcast_S_S8x16384x4 main_cst
  let main_v2 : IVec S8x16384x4 1 := cmpf .olt main_v0 main_v1
  let main_c : IVec S_ 1 := constantI S_ 1 1#1
  let main_v3 : IVec S_ 1 := (fun x v => Host.reduce IntOp.andi x v reducesTo_S8x16384x4_S_d0_1_2 h_S_) main_v2 main_c
  let main_v4 : FVec F S8x16384x4 .f32 := Host.absf main_arg1
  let main_cst_0 : FVec F S_ .f32 := constant S_ .f32 0x7F800000#32
  let main_v5 : FVec F S8x16384x4 .f32 := broadcastInDim S8x16384x4 ![] bcast_S_S8x16384x4 main_cst_0
  let main_v6 : IVec S8x16384x4 1 := cmpf .olt main_v4 main_v5
  let main_c_1 : IVec S_ 1 := constantI S_ 1 1#1
  let main_v7 : IVec S_ 1 := (fun x v => Host.reduce IntOp.andi x v reducesTo_S8x16384x4_S_d0_1_2 h_S_) main_v6 main_c_1
  let main_v8 : IVec S_ 1 := andi main_v3 main_v7
  let main_v9 : FVec F S512x4 .f32 := Host.absf main_arg2
  let main_cst_2 : FVec F S_ .f32 := constant S_ .f32 0x7F800000#32
  let main_v10 : FVec F S512x4 .f32 := broadcastInDim S512x4 ![] bcast_S_S512x4 main_cst_2
  let main_v11 : IVec S512x4 1 := cmpf .olt main_v9 main_v10
  let main_c_3 : IVec S_ 1 := constantI S_ 1 1#1
  let main_v12 : IVec S_ 1 := (fun x v => Host.reduce IntOp.andi x v reducesTo_S512x4_S_d0_1 h_S_) main_v11 main_c_3
  let main_v13 : IVec S_ 1 := andi main_v8 main_v12
  main_v13
-- ==== Kernel.lean ====
abbrev S8x16384x4 : Shape := ⟨3, ![8, 16384, 4]⟩
abbrev S512x4 : Shape := ⟨2, ![512, 4]⟩
abbrev S8x16384x512 : Shape := ⟨3, ![8, 16384, 512]⟩
abbrev S1x1024x4 : Shape := ⟨3, ![1, 1024, 4]⟩
abbrev S1x1024x512 : Shape := ⟨3, ![1, 1024, 512]⟩
abbrev S1024x4 : Shape := ⟨2, ![1024, 4]⟩
abbrev S1024x1 : Shape := ⟨2, ![1024, 1]⟩
abbrev S1024 : Shape := ⟨1, ![1024]⟩
abbrev S512x1 : Shape := ⟨2, ![512, 1]⟩
abbrev S512 : Shape := ⟨1, ![512]⟩
abbrev S1x512 : Shape := ⟨2, ![1, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S8x16384x4, .f32⟩
  | .hbm, ⟨1, _⟩ => ⟨S8x16384x4, .f32⟩
  | .hbm, ⟨2, _⟩ => ⟨S512x4, .f32⟩
  | .hbm, ⟨3, _⟩ => ⟨S8x16384x512, .f32⟩
  | .hbm, ⟨4, _⟩ => ⟨S8x16384x512, .f32⟩
  | .local _ .vmem, ⟨0, _⟩ => ⟨S1x1024x4, .f32⟩
  | .local _ .vmem, ⟨1, _⟩ => ⟨S1x1024x4, .f32⟩
  | .local _ .vmem, ⟨2, _⟩ => ⟨S1x1024x4, .f32⟩
  | .local _ .vmem, ⟨3, _⟩ => ⟨S1x1024x4, .f32⟩
  | .local _ .vmem, ⟨4, _⟩ => ⟨S512x4, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | _, _ => ⟨S8x16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  inb_S512x4_S512x4_0_0 : ∀ a, (![0, 0] : Fin 2 → Nat) a + S512x4.size a ≤ S512x4.size a
  h_S512x4 : 0 < S512x4.numel
  slices_S1024x4_o0_0_S1024x1 : S1024x4.Slices ![0, 0] S1024x1
  shapeCasts_S1024x1_S1024 : S1024x1.ShapeCasts S1024
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  slices_S512x4_o0_0_S512x1 : S512x4.Slices ![0, 0] S512x1
  shapeCasts_S512x1_S512 : S512x1.ShapeCasts S512
  slices_S512x4_o0_1_S512x1 : S512x4.Slices ![0, 1] S512x1
  slices_S512x4_o0_2_S512x1 : S512x4.Slices ![0, 2] S512x1
  slices_S512x4_o0_3_S512x1 : S512x4.Slices ![0, 3] S512x1
  shapeCasts_S1024_S1024x1 : S1024.ShapeCasts S1024x1
  shapeCasts_S512_S1x512 : S512.ShapeCasts S1x512
  broadcasts_S1024x1_S1024x512 : S1024x1.Broadcasts S1024x512
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4.size a ≤ S8x16384x4.size a
  hwx0_0 : ∀ i : grid0.Coords, EltTy.bits .f32 = 32 ∨ (Rect.block (s := S8x16384x4) S1x1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4.size a ≤ S8x16384x4.size a
  hwx0_1 : ∀ i : grid0.Coords, EltTy.bits .f32 = 32 ∨ (Rect.block (s := S8x16384x4) S1x1024x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4.size a ≤ S512x4.size a
  hwx0_2 : ∀ i : grid0.Coords, EltTy.bits .f32 = 32 ∨ (Rect.block (s := S512x4) S512x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x16384x512.size a
  hwx0_3 : ∀ i : grid0.Coords, EltTy.bits .f32 = 32 ∨ (Rect.block (s := S8x16384x512) S1x1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S8x16384x512.size a
  hwx0_4 : ∀ i : grid0.Coords, EltTy.bits .f32 = 32 ∨ (Rect.block (s := S8x16384x512) S1x1024x512.size (cc0_transform_4 i) (hinb0_4 i)).WholeWords (EltTy.packing .f32)

variable [Facts₀]

abbrev win0_0 : Pipeline.Window sig grid0 :=
  Pipeline.Window.ofSpec (Memref.whole main_arg0) S1x1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x16384x4 : Shape := ⟨3, ![8, 16384, 4]⟩
abbrev S512x4 : Shape := ⟨2, ![512, 4]⟩
abbrev S131072x4 : Shape := ⟨2, ![131072, 4]⟩
abbrev S512x1 : Shape := ⟨2, ![512, 1]⟩
abbrev S512 : Shape := ⟨1, ![512]⟩
abbrev S_ : Shape := ⟨0, ![]⟩
abbrev S131072x1 : Shape := ⟨2, ![131072, 1]⟩
abbrev S131072 : Shape := ⟨1, ![131072]⟩
abbrev S131072x1x4 : Shape := ⟨3, ![131072, 1, 4]⟩
abbrev S1x512x4 : Shape := ⟨3, ![1, 512, 4]⟩
abbrev S131072x512x4 : Shape := ⟨3, ![131072, 512, 4]⟩
abbrev S131072x512 : Shape := ⟨2, ![131072, 512]⟩
abbrev S8x16384x512 : Shape := ⟨3, ![8, 16384, 512]⟩

abbrev nBuf : Space → Nat
  | .hbm => 92
  | .vmem => 0
  | .smem => 0
  | _ => 0

abbrev bufTy : (tb : Table) → Fin (tcTables nBuf tb) → BufTy
  | .hbm, ⟨0, _⟩ => ⟨S8x16384x4, .f32⟩
  | .hbm, ⟨1, _⟩ => ⟨S8x16384x4, .f32⟩
  | .hbm, ⟨2, _⟩ => ⟨S512x4, .f32⟩
  | .hbm, ⟨3, _⟩ => ⟨S131072x4, .f32⟩
  | .hbm, ⟨4, _⟩ => ⟨S131072x4, .f32⟩
  | .hbm, ⟨5, _⟩ => ⟨S512x1, .f32⟩
  | .hbm, ⟨6, _⟩ => ⟨S512, .f32⟩
  | .hbm, ⟨7, _⟩ => ⟨S512x1, .f32⟩
  | .hbm, ⟨8, _⟩ => ⟨S512, .f32⟩
  | .hbm, ⟨9, _⟩ => ⟨S512x1, .f32⟩
  | .hbm, ⟨10, _⟩ => ⟨S512, .f32⟩
  | .hbm, ⟨11, _⟩ => ⟨S512x1, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512x4, .f32⟩
  | .hbm, ⟨28, _⟩ => ⟨S131072x1, .f32⟩
  | .hbm, ⟨29, _⟩ => ⟨S131072, .f32⟩
  | .hbm, ⟨30, _⟩ => ⟨S131072x1, .f32⟩
  | .hbm, ⟨31, _⟩ => ⟨S131072, .f32⟩
  | .hbm, ⟨32, _⟩ => ⟨S131072x1, .f32⟩
  | .hbm, ⟨33, _⟩ => ⟨S131072, .f32⟩
  | .hbm, ⟨34, _⟩ => ⟨S131072x1, .f32⟩
  | .hbm, ⟨35, _⟩ => ⟨S131072, .f32⟩
  | .hbm, ⟨36, _⟩ => ⟨S131072, .f32⟩
  | .hbm, ⟨37, _⟩ => ⟨S_, .f32⟩
  | .hbm, ⟨38, _⟩ => ⟨S131072, .f32⟩
  | .hbm, ⟨39, _⟩ => ⟨S131072, .f32⟩
  | .hbm, ⟨40, _⟩ => ⟨S131072, .f32⟩
  | .hbm, ⟨41, _⟩ => ⟨S_, .f32⟩
  | .hbm, ⟨42, _⟩ => ⟨S131072, .f32⟩
  | .hbm, ⟨43, _⟩ => ⟨S131072, .f32⟩
  | .hbm, ⟨44, _⟩ => ⟨S131072, .f32⟩
  | .hbm, ⟨45, _⟩ => ⟨S131072, .f32⟩
  | .hbm, ⟨46, _⟩ => ⟨S131072x1, .f32⟩
  | .hbm, ⟨47, _⟩ => ⟨S131072x1, .f32⟩
  | .hbm, ⟨48, _⟩ => ⟨S131072x1, .f32⟩
  | .hbm, ⟨49, _⟩ => ⟨S131072x1, .f32⟩
  | .hbm, ⟨50, _⟩ => ⟨S131072x4, .f32⟩
  | .hbm, ⟨51, _⟩ => ⟨S131072x1x4, .f32⟩
  | .hbm, ⟨52, _⟩ => ⟨S1x512x4, .f32⟩
  | .hbm, ⟨53, _⟩ => ⟨S131072x512x4, .f32⟩
  | .hbm, ⟨54, _⟩ => ⟨S131072x512x4, .f32⟩
  | .hbm, ⟨55, _⟩ => ⟨S131072x512x4, .f32⟩
  | .hbm, ⟨56, _⟩ => ⟨S131072x512x4, .f32⟩
  | .hbm, ⟨57, _⟩ => ⟨S_, .f32⟩
  | .hbm, ⟨58, _⟩ => ⟨S131072x512, .f32⟩
  | .hbm, ⟨59, _⟩ => ⟨S131072x1, .f32⟩
  | .hbm, ⟨60, _⟩ => ⟨S131072, .f32⟩
  | .hbm, ⟨61, _⟩ => ⟨S131072x1, .f32⟩
  | .hbm, ⟨62, _⟩ => ⟨S131072, .f32⟩
  | .hbm, ⟨63, _⟩ => ⟨S131072x1, .f32⟩
  | .hbm, ⟨64, _⟩ => ⟨S131072, .f32⟩
  | .hbm, ⟨65, _⟩ => ⟨S131072x1, .f32⟩
  | .hbm, ⟨66, _⟩ => ⟨S131072, .f32⟩
  | .hbm, ⟨67, _⟩ => ⟨S131072, .f32⟩
  | .hbm, ⟨68, _⟩ => ⟨S_, .f32⟩
  | .hbm, ⟨69, _⟩ => ⟨S131072, .f32⟩
  | .hbm, ⟨70, _⟩ => ⟨S131072, .f32⟩
  | .hbm, ⟨71, _⟩ => ⟨S131072, .f32⟩
  | .hbm, ⟨72, _⟩ => ⟨S_, .f32⟩
  | .hbm, ⟨73, _⟩ => ⟨S131072, .f32⟩
  | .hbm, ⟨74, _⟩ => ⟨S131072, .f32⟩
  | .hbm, ⟨75, _⟩ => ⟨S131072, .f32⟩
  | .hbm, ⟨76, _⟩ => ⟨S131072, .f32⟩
  | .hbm, ⟨77, _⟩ => ⟨S131072x1, .f32⟩
  | .hbm, ⟨78, _⟩ => ⟨S131072x1, .f32⟩
  | .hbm, ⟨79, _⟩ => ⟨S131072x1, .f32⟩
  | .hbm, ⟨80, _⟩ => ⟨S131072x1, .f32⟩
  | .hbm, ⟨81, _⟩ => ⟨S131072x4, .f32⟩
  | .hbm, ⟨82, _⟩ => ⟨S131072x1x4, .f32⟩
  | .hbm, ⟨83, _⟩ => ⟨S1x512x4, .f32⟩
  | .hbm, ⟨84, _⟩ => ⟨S131072x512x4, .f32⟩
  | .hbm, ⟨85, _⟩ => ⟨S131072x512x4, .f32⟩
  | .hbm, ⟨86, _⟩ => ⟨S131072x512x4, .f32⟩
  | .hbm, ⟨87, _⟩ => ⟨S131072x512x4, .f32⟩
  | .hbm, ⟨88, _⟩ => ⟨S_, .f32⟩
  | .hbm, ⟨89, _⟩ => ⟨S131072x512, .f32⟩
  | .hbm, ⟨90, _⟩ => ⟨S8x16384x512, .f32⟩
  | .hbm, ⟨91, _⟩ => ⟨S8x16384x512, .f32⟩
  | _, _ => ⟨S8x16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_3 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_6 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩

abbrev nD : Nat := 1
abbrev τ : Topo := Topo.v7x

variable {F : FTy → Type} [FloatOps F]

class Facts₀ : Prop where
  shapeCasts_S8x16384x4_S131072x4 : S8x16384x4.ShapeCasts S131072x4
  slices_S512x4_S512x1_0_0 : S512x4.Slices ![0, 0] S512x1
  shapeCasts_S512x1_S512 : S512x1.ShapeCasts S512
  slices_S512x4_S512x1_0_1 : S512x4.Slices ![0, 1] S512x1
  slices_S512x4_S512x1_0_2 : S512x4.Slices ![0, 2] S512x1
  slices_S512x4_S512x1_0_3 : S512x4.Slices ![0, 3] S512x1
  bcast_S_S512 : S_.BroadcastsInDim S512 (![] : Fin 0 → Fin S512.rank)
  bcast_S512_S512x1_0 : S512.BroadcastsInDim S512x1 (![0] : Fin 1 → Fin S512x1.rank)
  concatenates_S512x1_S512x1_S512x1_S512x1_S512x4_d1 : Shape.Concatenates [S512x1, S512x1, S512x1, S512x1] S512x4 1
  slices_S131072x4_S131072x1_0_0 : S131072x4.Slices ![0, 0] S131072x1
  shapeCasts_S131072x1_S131072 : S131072x1.ShapeCasts S131072
  slices_S131072x4_S131072x1_0_1 : S131072x4.Slices ![0, 1] S131072x1
  slices_S131072x4_S131072x1_0_2 : S131072x4.Slices ![0, 2] S131072x1
  slices_S131072x4_S131072x1_0_3 : S131072x4.Slices ![0, 3] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x1_S131072x4_d1 : Shape.Concatenates [S131072x1, S131072x1, S131072x1, S131072x1] S131072x4 1
  bcast_S131072x4_S131072x1x4_0_2 : S131072x4.BroadcastsInDim S131072x1x4 (![0, 2] : Fin 2 → Fin S131072x1x4.rank)
  bcast_S512x4_S1x512x4_1_2 : S512x4.BroadcastsInDim S1x512x4 (![1, 2] : Fin 2 → Fin S1x512x4.rank)
  bcast_S131072x1x4_S131072x512x4_0_1_2 : S131072x1x4.BroadcastsInDim S131072x512x4 (![0, 1, 2] : Fin 3 → Fin S131072x512x4.rank)
  bcast_S1x512x4_S131072x512x4_0_1_2 : S1x512x4.BroadcastsInDim S131072x512x4 (![0, 1, 2] : Fin 3 → Fin S131072x512x4.rank)
  reducesTo_S131072x512x4_S131072x512_d2 : S131072x512x4.ReducesTo [2] S131072x512
  h_S_ : 0 < S_.numel
  shapeCasts_S131072x512_S8x16384x512 : S131072x512.ShapeCasts S8x16384x512

variable [Facts₀]

class Facts : Prop extends Facts₀ where

variable [Facts]
-- ==== Proof.PairCost.lean ====
/-
  The L1 cost between two boxes given by their corners. A box is four numbers (x0, y0, x1, y1); its centre and
  size are ((x0 + x1)/2, (y0 + y1)/2, x1 - x0, y1 - y0), and the cost of a box p against a target box t is

      |cx p - cx t| + |cy p - cy t| + |w p - w t| + |h p - h t|,

  the four distances added from left to right. `cost P T` is the array of these costs for a batch of boxes
  P[b, q, .] (8 x 16384 of them) against 512 targets T[t, .]: its entry (b, q, t) is the cost of box (b, q)
  against target t. Everything is stated for any float instance; nothing here depends on a program.
-/
import Idealize.ShloMosaic.PureOps.Ideal
import Idealize.ShloMosaic.Lib.ValueIdx

noncomputable section

namespace Cert.PairCost

open Idealize.ShloMosaic Idealize.ShloMosaic.ValueIdx

variable {F : FTy → Type} [FloatOps F]

/-- The midpoint of a box's two corner coordinates on one axis: (lo + hi) * 1/2, the half being the f32 word of 0.5. -/
def mid (lo hi : F .f32) : F .f32 := FloatOps.mulf (FloatOps.addf lo hi) (Scalar.ofBits .f32 0x3F000000#32)

/-- The extent of a box on one axis: hi - lo. -/
def ext (lo hi : F .f32) : F .f32 := FloatOps.subf hi lo

/-- The distance |a - b| of two numbers. -/
def gap (a b : F .f32) : F .f32 := FloatOps.absf (FloatOps.subf a b)

/-- The cost of box (b, q) of `P` against target t of `T`: centre distance in x, centre distance in y, width
    distance, height distance, added in this order. -/
def costAt (P : Vec F ⟨3, ![8, 16384, 4]⟩ .f32) (T : Vec F ⟨2, ![512, 4]⟩ .f32) (b : Fin 8) (q : Fin 16384) (t : Fin 512) : F .f32 :=
  FloatOps.addf (FloatOps.addf (FloatOps.addf
      (gap (mid (P (ix3 b q 0)) (P (ix3 b q 2))) (mid (T (ix2 t 0)) (T (ix2 t 2))))
      (gap (mid (P (ix3 b q 1)) (P (ix3 b q 3))) (mid (T (ix2 t 1)) (T (ix2 t 3)))))
      (gap (ext (P (ix3 b q 0)) (P (ix3 b q 2))) (ext (T (ix2 t 0)) (T (ix2 t 2)))))
      (gap (ext (P (ix3 b q 1)) (P (ix3 b q 3))) (ext (T (ix2 t 1)) (T (ix2 t 3))))

/-- The whole cost array: entry (b, q, t) is `costAt P T b q t`. -/
def cost (P : Vec F ⟨3, ![8, 16384, 4]⟩ .f32) (T : Vec F ⟨2, ![512, 4]⟩ .f32) : Vec F ⟨3, ![8, 16384, 512]⟩ .f32 :=
  fun i => costAt P T (i 0) (i 1) (i 2)

end Cert.PairCost

end
-- ==== Proof.KernelValue.lean ====
/-
  The kernel's two result arrays are the pairwise box cost of PairCost.lean.

  The grid has 8 x 16 points; point t = 16 b + s works on boxes (b, 1024 s .. 1024 s + 1023) and on all 512
  targets, and writes the block [b, 1024 s .. 1024 s + 1023, 0 .. 511] of each result. The generated value leg says
  what a point leaves in its block as one function of the blocks it loaded, entry by entry (E3 for the first
  result, E4 for the second): the four distances of PairCost.costAt, added in the same order, each operand read
  at row y1 of the box block and row y2 of the target block. A block's entry is the array's entry at block index
  times block size plus the offset in the block, so entry (0, y1, y2) of point t's block is the cost of box
  (b, 1024 s + y1) against target y2. The 128 blocks tile the result, so the whole array is `cost`.
  The first result reads the first argument's blocks, the second result the second argument's.
-/
import proofs.«149050_j28140625723714_1_alg».proof.Proof.Gen.KernelIdeal.Value
import proofs.«149050_j28140625723714_1_alg».proof.Proof.PairCost
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.PairCost

variable {F : FTy → Type} [FloatOps F]

/-! ## What a point computes, over any loaded blocks -/

/-- The first result's block entry `y` as the cost of one box against one target: for any loaded blocks `P0`
    (boxes) and `P1` (targets) that agree with arrays `A` and `T` at the rows entry `y` reads. -/
theorem E3_eq_costAt (P0 : Vec F S1x1024x4 .f32) (P1 : Vec F S512x4 .f32) (A : Vec F S8x16384x4 .f32) (T : Vec F S512x4 .f32)
    (y : S1x1024x512.Idx) (b : Fin 8) (q : Fin 16384) (tt : Fin 512)
    (hP : ∀ (k : Fin 4) (u : S1x1024x4.Idx), (u 1).val = (y 1).val → (u 2).val = k.val → P0 u = A (ix3 b q k))
    (hT : ∀ (k : Fin 4) (u : S512x4.Idx), (u 0).val = (y 2).val → (u 1).val = k.val → P1 u = T (ix2 tt k)) :
    E3 P0 P1 y = costAt A T b q tt := by
  -- the sixteen reads are at eight distinct places (four columns of the box row, four of the target row), each read twice
  unfold E3 costAt mid ext gap
  rw [hP 0 (ix3_0 y) rfl rfl, hP 2 (ix3_1 y) rfl rfl, hT 0 (ix3_2 y) rfl rfl, hT 2 (ix3_3 y) rfl rfl,
    hP 1 (ix3_4 y) rfl rfl, hP 3 (ix3_5 y) rfl rfl, hT 1 (ix3_6 y) rfl rfl, hT 3 (ix3_7 y) rfl rfl]

/-- The second result's block entry, the same way. -/
theorem E4_eq_costAt (P0 : Vec F S1x1024x4 .f32) (P1 : Vec F S512x4 .f32) (A : Vec F S8x16384x4 .f32) (T : Vec F S512x4 .f32)
    (y : S1x1024x512.Idx) (b : Fin 8) (q : Fin 16384) (tt : Fin 512)
    (hP : ∀ (k : Fin 4) (u : S1x1024x4.Idx), (u 1).val = (y 1).val → (u 2).val = k.val → P0 u = A (ix3 b q k))
    (hT : ∀ (k : Fin 4) (u : S512x4.Idx), (u 0).val = (y 2).val → (u 1).val = k.val → P1 u = T (ix2 tt k)) :
    E4 P0 P1 y = costAt A T b q tt := by
  unfold E4 costAt mid ext gap
  rw [hP 0 (ix4_0 y) rfl rfl, hP 2 (ix4_1 y) rfl rfl, hT 0 (ix4_2 y) rfl rfl, hT 2 (ix4_3 y) rfl rfl,
    hP 1 (ix4_4 y) rfl rfl, hP 3 (ix4_5 y) rfl rfl, hT 1 (ix4_6 y) rfl rfl, hT 3 (ix4_7 y) rfl rfl]

theorem zero3 : (![0, 0, 0] : Fin 3 → Nat) = fun _ => 0 := funext fun a => by fin_cases a <;> rfl
theorem zero2 : (![0, 0] : Fin 2 → Nat) = fun _ => 0 := funext fun a => by fin_cases a <;> rfl

/-- What the body leaves in the first result's buffer, at entry `y`, from any three loaded blocks. -/
theorem body3 (x0 x1 : Vec F S1x1024x4 .f32) (x2 : Vec F S512x4 .f32) (y : S1x1024x512.Idx) :
    out0_3 x0 x1 x2 y = E3 x0 x2 y := by
  unfold out0_3
  rw [canon3_eq]
  simp only [View.ld_unit_zero (S := S1x1024x4) zero3, View.ld_unit_zero (S := S512x4) zero2]

/-- What the body leaves in the second result's buffer. -/
theorem body4 (x0 x1 : Vec F S1x1024x4 .f32) (x2 : Vec F S512x4 .f32) (y : S1x1024x512.Idx) :
    out0_4 x0 x1 x2 y = E4 x1 x2 y := by
  unfold out0_4
  rw [canon4_eq]
  simp only [View.ld_unit_zero (S := S1x1024x4) zero3, View.ld_unit_zero (S := S512x4) zero2]

/-! ## The blocks of the arrays -/

variable (m : (ℓ : Loc nD τ sig) → Buf (Elt F) ℓ) (ρ : Dev nD → PrngReg)

/-- The printed index maps in closed form, decided over the 128 grid points: point t = 16 b + s reads and writes
    block (b, s, 0) of the boxes, the anchors and both results, and block (0, 0) of the targets. -/
theorem idx_facts : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 ∧ win0_1.index t (2 : Fin 3) = 0)
    ∧ (win0_2.index t (0 : Fin 2) = 0 ∧ win0_2.index t (1 : Fin 2) = 0)
    ∧ (win0_3.index t (0 : Fin 3) = t.val / 16 ∧ win0_3.index t (1 : Fin 3) = t.val % 16 ∧ win0_3.index t (2 : Fin 3) = 0)
    ∧ (win0_4.index t (0 : Fin 3) = t.val / 16 ∧ win0_4.index t (1 : Fin 3) = t.val % 16 ∧ win0_4.index t (2 : Fin 3) = 0) :=
  (by decide +kernel : ∀ t : Fin grid0.N, _)

/-- Point t's block of the boxes: its row y1 is box (t / 16, 1024 (t % 16) + y1). -/
theorem boxes_block (c : Dev nD) (t : Fin cfg0.N) (u : S1x1024x4.Idx) (b : Fin 8) (q : Fin 16384) (k : Fin 4)
    (hb : b.val = t.val / 16) (hq : q.val = 1024 * (t.val % 16) + (u 1).val) (hk : (u 2).val = k.val) :
    (iblk m c 0 t : Vec F S1x1024x4 .f32) u = (V m c main_arg0 : Vec F S8x16384x4 .f32) (ix3 b q k) := by
  obtain ⟨⟨e0, e1, e2⟩, -⟩ := idx_facts t
  unfold iblk
  rw [View.read_apply]
  show V m c main_arg0 _ = V m c main_arg0 _
  refine congrArg (V m c main_arg0) (funext fun a => Fin.ext ?_)
  have hu0 : (u 0).val < 1 := (u 0).isLt
  match a with
  | ⟨0, _⟩ => show win0_0.index t (0 : Fin 3) * 1 + 1 * (u 0).val = b.val; omega
  | ⟨1, _⟩ => show win0_0.index t (1 : Fin 3) * 1024 + 1 * (u 1).val = q.val; omega
  | ⟨2, _⟩ => show win0_0.index t (2 : Fin 3) * 4 + 1 * (u 2).val = k.val; omega

/-- Point t's block of the anchors, likewise. -/
theorem anchors_block (c : Dev nD) (t : Fin cfg0.N) (u : S1x1024x4.Idx) (b : Fin 8) (q : Fin 16384) (k : Fin 4)
    (hb : b.val = t.val / 16) (hq : q.val = 1024 * (t.val % 16) + (u 1).val) (hk : (u 2).val = k.val) :
    (iblk m c 1 t : Vec F S1x1024x4 .f32) u = (V m c main_arg1 : Vec F S8x16384x4 .f32) (ix3 b q k) := by
  obtain ⟨-, ⟨e0, e1, e2⟩, -⟩ := idx_facts t
  unfold iblk
  rw [View.read_apply]
  show V m c main_arg1 _ = V m c main_arg1 _
  refine congrArg (V m c main_arg1) (funext fun a => Fin.ext ?_)
  have hu0 : (u 0).val < 1 := (u 0).isLt
  match a with
  | ⟨0, _⟩ => show win0_1.index t (0 : Fin 3) * 1 + 1 * (u 0).val = b.val; omega
  | ⟨1, _⟩ => show win0_1.index t (1 : Fin 3) * 1024 + 1 * (u 1).val = q.val; omega
  | ⟨2, _⟩ => show win0_1.index t (2 : Fin 3) * 4 + 1 * (u 2).val = k.val; omega

/-- Every point's block of the targets is the whole target array. -/
theorem targets_block (c : Dev nD) (t : Fin cfg0.N) (u : S512x4.Idx) (tt : Fin 512) (k : Fin 4)
    (ht : (u 0).val = tt.val) (hk : (u 1).val = k.val) :
    (iblk m c 2 t : Vec F S512x4 .f32) u = (V m c main_arg2 : Vec F S512x4 .f32) (ix2 tt k) := by
  obtain ⟨-, -, ⟨e0, e1⟩, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 2) * 512 + 1 * (u 0).val = tt.val; omega
  | ⟨1, _⟩ => show win0_2.index t (1 : Fin 2) * 4 + 1 * (u 1).val = k.val; omega

/-! ## What each point writes back, the cover, the arrays -/

/-- Point t writes back block t of the cost of the boxes against the targets. -/
theorem flushed3_eq (c : Dev nD) (t : Fin cfg0.N) :
    (dats m 0 c).flushed 3 t = ((cfg0.win 3).blk t).view.read (Elt F) (cost (V m c main_arg0) (V m c main_arg2)) := by
  rw [flushed3]
  obtain ⟨-, -, -, ⟨e0, e1, e2⟩, -⟩ := idx_facts t
  funext y
  show out0_3 (iblk m c 0 t) (iblk m c 1 t) (iblk m c 2 t) y = cost (V m c main_arg0) (V m c main_arg2) (((cfg0.win 3).blk t).view.emb y)
  rw [body3]
  unfold cost
  have hy0 : (y 0).val < 1 := (y 0).isLt
  have hb : ((((cfg0.win 3).blk t).view.emb y) 0).val = t.val / 16 := by
    show win0_3.index t (0 : Fin 3) * 1 + 1 * (y 0).val = t.val / 16; omega
  have hq : ((((cfg0.win 3).blk t).view.emb y) 1).val = 1024 * (t.val % 16) + (y 1).val := by
    show win0_3.index t (1 : Fin 3) * 1024 + 1 * (y 1).val = 1024 * (t.val % 16) + (y 1).val; omega
  have ht : (y 2).val = ((((cfg0.win 3).blk t).view.emb y) 2).val := by
    show (y 2).val = win0_3.index t (2 : Fin 3) * 512 + 1 * (y 2).val; omega
  exact E3_eq_costAt _ _ _ _ y _ _ _
    (fun k u h1 h2 => boxes_block m c t u _ _ k hb (by rw [hq, h1]) h2)
    (fun k u h0 h1 => targets_block m c t u _ k (by rw [h0, ht]) h1)

/-- Point t writes back block t of the cost of the anchors against the targets. -/
theorem flushed4_eq (c : Dev nD) (t : Fin cfg0.N) :
    (dats m 0 c).flushed 4 t = ((cfg0.win 4).blk t).view.read (Elt F) (cost (V m c main_arg1) (V m c main_arg2)) := by
  rw [flushed4]
  obtain ⟨-, -, -, -, ⟨e0, e1, e2⟩⟩ := idx_facts t
  funext y
  show out0_4 (iblk m c 0 t) (iblk m c 1 t) (iblk m c 2 t) y = cost (V m c main_arg1) (V m c main_arg2) (((cfg0.win 4).blk t).view.emb y)
  rw [body4]
  unfold cost
  have hy0 : (y 0).val < 1 := (y 0).isLt
  have hb : ((((cfg0.win 4).blk t).view.emb y) 0).val = t.val / 16 := by
    show win0_4.index t (0 : Fin 3) * 1 + 1 * (y 0).val = t.val / 16; omega
  have hq : ((((cfg0.win 4).blk t).view.emb y) 1).val = 1024 * (t.val % 16) + (y 1).val := by
    show win0_4.index t (1 : Fin 3) * 1024 + 1 * (y 1).val = 1024 * (t.val % 16) + (y 1).val; omega
  have ht : (y 2).val = ((((cfg0.win 4).blk t).view.emb y) 2).val := by
    show (y 2).val = win0_4.index t (2 : Fin 3) * 512 + 1 * (y 2).val; omega
  exact E4_eq_costAt _ _ _ _ y _ _ _
    (fun k u h1 h2 => anchors_block m c t u _ _ k hb (by rw [hq, h1]) h2)
    (fun k u h0 h1 => targets_block m c t u _ k (by rw [h0, ht]) h1)

/-- An index of the first result is in point t's block iff each coordinate is in the block's range on its axis. -/
theorem mem_blk3 (t : Fin cfg0.N) (i : S8x16384x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v0_0).slice (win0_3.rect t)).set ↔ _
  rw [View.set_slice_whole, Rect.mem_set_unit]
  exact Iff.rfl

theorem mem_blk4 (t : Fin cfg0.N) (i : S8x16384x512.Idx) :
    i ∈ ((cfg0.win 4).blk t).view.set ↔ ∀ a : Fin 3, win0_4.index t a * S1x1024x512.size a ≤ (i a).val ∧ (i a).val < win0_4.index t a * S1x1024x512.size a + S1x1024x512.size a := by
  show i ∈ ((View.whole main_v0_1).slice (win0_4.rect t)).set ↔ _
  rw [View.set_slice_whole, Rect.mem_set_unit]
  exact Iff.rfl

/-- The point whose block holds entry (b, q, ·): 16 b + q / 1024. -/
def pointOf (i : S8x16384x512.Idx) : Fin cfg0.N :=
  ⟨16 * (i 0).val + (i 1).val / 1024, by
    have h0 : (i 0).val < 8 := (i 0).isLt
    have h1 : (i 1).val < 16384 := (i 1).isLt
    rw [show cfg0.N = 128 from N_0]; omega⟩

/-- The 128 blocks tile the first result. -/
theorem cover3 (i : S8x16384x512.Idx) : ∃ t : Fin cfg0.N, (cfg0.win 3).flush t = true ∧ i ∈ ((cfg0.win 3).blk t).view.set := by
  refine ⟨pointOf i, flush0_3 _, ?_⟩
  rw [mem_blk3]
  obtain ⟨-, -, -, ⟨e0, e1, e2⟩, -⟩ := idx_facts (pointOf i)
  have hv : (pointOf i).val = 16 * (i 0).val + (i 1).val / 1024 := rfl
  have h0 : (i 0).val < 8 := (i 0).isLt
  have h1 : (i 1).val < 16384 := (i 1).isLt
  have h2 : (i 2).val < 512 := (i 2).isLt
  intro a
  match a with
  | ⟨0, _⟩ => show win0_3.index (pointOf i) (0 : Fin 3) * 1 ≤ (i 0).val ∧ (i 0).val < win0_3.index (pointOf i) (0 : Fin 3) * 1 + 1; omega
  | ⟨1, _⟩ => show win0_3.index (pointOf i) (1 : Fin 3) * 1024 ≤ (i 1).val ∧ (i 1).val < win0_3.index (pointOf i) (1 : Fin 3) * 1024 + 1024; omega
  | ⟨2, _⟩ => show win0_3.index (pointOf i) (2 : Fin 3) * 512 ≤ (i 2).val ∧ (i 2).val < win0_3.index (pointOf i) (2 : Fin 3) * 512 + 512; omega

/-- The 128 blocks tile the second result. -/
theorem cover4 (i : S8x16384x512.Idx) : ∃ t : Fin cfg0.N, (cfg0.win 4).flush t = true ∧ i ∈ ((cfg0.win 4).blk t).view.set := by
  refine ⟨pointOf i, flush0_4 _, ?_⟩
  rw [mem_blk4]
  obtain ⟨-, -, -, -, ⟨e0, e1, e2⟩⟩ := idx_facts (pointOf i)
  have hv : (pointOf i).val = 16 * (i 0).val + (i 1).val / 1024 := rfl
  have h0 : (i 0).val < 8 := (i 0).isLt
  have h1 : (i 1).val < 16384 := (i 1).isLt
  have h2 : (i 2).val < 512 := (i 2).isLt
  intro a
  match a with
  | ⟨0, _⟩ => show win0_4.index (pointOf i) (0 : Fin 3) * 1 ≤ (i 0).val ∧ (i 0).val < win0_4.index (pointOf i) (0 : Fin 3) * 1 + 1; omega
  | ⟨1, _⟩ => show win0_4.index (pointOf i) (1 : Fin 3) * 1024 ≤ (i 1).val ∧ (i 1).val < win0_4.index (pointOf i) (1 : Fin 3) * 1024 + 1024; omega
  | ⟨2, _⟩ => show win0_4.index (pointOf i) (2 : Fin 3) * 512 ≤ (i 2).val ∧ (i 2).val < win0_4.index (pointOf i) (2 : Fin 3) * 512 + 512; omega

/-- After the run the first result holds the cost of the boxes against the targets, -/
theorem final3 (c : Dev nD) : (dats m 0 c).arrAt 3 cfg0.N = cost (V m c main_arg0) (V m c main_arg2) :=
  (dats m 0 c).arrAt_eq_of_cover 3 _ (fun t _ => flushed3_eq m c t) cover3

/-- and the second the cost of the anchors against the targets. -/
theorem final4 (c : Dev nD) : (dats m 0 c).arrAt 4 cfg0.N = cost (V m c main_arg1) (V m c main_arg2) :=
  (dats m 0 c).arrAt_eq_of_cover 4 _ (fun t _ => flushed4_eq m c t) cover4

/-- The kernel's run, read: both results at the cost function of the arguments, the arguments unchanged. -/
theorem run : θ_run defs (onTc (τ := τ) (main (F := F))) ⟨m, fun _ => 0, ρ⟩ fun r => ∀ c : Dev nD,
      r.2.mem ((c : Thread nD τ).loc main_v0_0) = cost (m ((c : Thread nD τ).loc main_arg0)) (m ((c : Thread nD τ).loc main_arg2))
      ∧ r.2.mem ((c : Thread nD τ).loc main_v0_1) = cost (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (run_blocks m ρ)

end Cert.KernelIdeal.Hand

end
-- ==== Proof.LibConcatCols.lean ====
/-
  Four columns joined side by side. Four arrays of shape [N, 1] concatenated along axis 1 give an array of shape
  [N, 4] whose column k is the k-th piece: read at an index whose second coordinate is k, the concatenation is
  the k-th piece at the index with the same first coordinate. Any N, any element type. One lemma per column.
-/
import Idealize.ShloMosaic.Lib.Pipeline.Value

namespace Cert.LibConcatCols

open Idealize.ShloMosaic

variable {α : Type} {N : Nat}

/-- The index-matching side condition of the library's piece lemma, for a column: off the joined axis (axis 1) the
    only coordinate is the row, which the two indices share. -/
theorem rows_agree (j : (⟨2, ![N, 4]⟩ : Shape).Idx) (i : (⟨2, ![N, 1]⟩ : Shape).Idx) (hi : (i 0).val = (j 0).val)
    (hr : (⟨2, ![N, 1]⟩ : Shape).rank = (⟨2, ![N, 4]⟩ : Shape).rank) :
    ∀ b : Fin (⟨2, ![N, 1]⟩ : Shape).rank, b.cast hr ≠ (1 : Fin (⟨2, ![N, 4]⟩ : Shape).rank) → (i b).val = (j (b.cast hr)).val := fun b =>
  match b with
  | ⟨0, _⟩ => fun _ => hi
  | ⟨1, _⟩ => fun h => absurd rfl h

/-- A column index's second coordinate is 0. -/
theorem col_zero (i : (⟨2, ![N, 1]⟩ : Shape).Idx) : (i 1).val = 0 := by
  have h : (i 1).val < 1 := (i 1).isLt
  omega

/-- Column 0 of the join is the first piece. -/
theorem concat_cols_apply0 (u0 u1 u2 u3 : (⟨2, ![N, 1]⟩ : Shape).Idx → α)
    (h : Shape.Concatenates [⟨2, ![N, 1]⟩, ⟨2, ![N, 1]⟩, ⟨2, ![N, 1]⟩, ⟨2, ![N, 1]⟩] ⟨2, ![N, 4]⟩ 1)
    (j : (⟨2, ![N, 4]⟩ : Shape).Idx) (i : (⟨2, ![N, 1]⟩ : Shape).Idx) (hj : (j 1).val = 0) (hi : (i 0).val = (j 0).val) :
    concatenate ⟨2, ![N, 4]⟩ 1 [⟨⟨2, ![N, 1]⟩, u0⟩, ⟨⟨2, ![N, 1]⟩, u1⟩, ⟨⟨2, ![N, 1]⟩, u2⟩, ⟨⟨2, ![N, 1]⟩, u3⟩] h j = u0 i :=
  concatenate_apply_piece (t := ⟨2, ![N, 4]⟩) 1 [⟨⟨2, ![N, 1]⟩, u0⟩, ⟨⟨2, ![N, 1]⟩, u1⟩, ⟨⟨2, ![N, 1]⟩, u2⟩, ⟨⟨2, ![N, 1]⟩, u3⟩] h j 0
    (by show 0 < 4; omega) ⟨2, ![N, 1]⟩ u0 rfl rfl 0 rfl i (rows_agree j i hi rfl)
    (by show 0 + (i 1).val = (j 1).val; rw [col_zero i, hj])

/-- Column 1 of the join is the second piece. -/
theorem concat_cols_apply1 (u0 u1 u2 u3 : (⟨2, ![N, 1]⟩ : Shape).Idx → α)
    (h : Shape.Concatenates [⟨2, ![N, 1]⟩, ⟨2, ![N, 1]⟩, ⟨2, ![N, 1]⟩, ⟨2, ![N, 1]⟩] ⟨2, ![N, 4]⟩ 1)
    (j : (⟨2, ![N, 4]⟩ : Shape).Idx) (i : (⟨2, ![N, 1]⟩ : Shape).Idx) (hj : (j 1).val = 1) (hi : (i 0).val = (j 0).val) :
    concatenate ⟨2, ![N, 4]⟩ 1 [⟨⟨2, ![N, 1]⟩, u0⟩, ⟨⟨2, ![N, 1]⟩, u1⟩, ⟨⟨2, ![N, 1]⟩, u2⟩, ⟨⟨2, ![N, 1]⟩, u3⟩] h j = u1 i :=
  concatenate_apply_piece (t := ⟨2, ![N, 4]⟩) 1 [⟨⟨2, ![N, 1]⟩, u0⟩, ⟨⟨2, ![N, 1]⟩, u1⟩, ⟨⟨2, ![N, 1]⟩, u2⟩, ⟨⟨2, ![N, 1]⟩, u3⟩] h j 1
    (by show 1 < 4; omega) ⟨2, ![N, 1]⟩ u1 rfl rfl 1 rfl i (rows_agree j i hi rfl)
    (by show 1 + (i 1).val = (j 1).val; rw [col_zero i, hj])

/-- Column 2 of the join is the third piece. -/
theorem concat_cols_apply2 (u0 u1 u2 u3 : (⟨2, ![N, 1]⟩ : Shape).Idx → α)
    (h : Shape.Concatenates [⟨2, ![N, 1]⟩, ⟨2, ![N, 1]⟩, ⟨2, ![N, 1]⟩, ⟨2, ![N, 1]⟩] ⟨2, ![N, 4]⟩ 1)
    (j : (⟨2, ![N, 4]⟩ : Shape).Idx) (i : (⟨2, ![N, 1]⟩ : Shape).Idx) (hj : (j 1).val = 2) (hi : (i 0).val = (j 0).val) :
    concatenate ⟨2, ![N, 4]⟩ 1 [⟨⟨2, ![N, 1]⟩, u0⟩, ⟨⟨2, ![N, 1]⟩, u1⟩, ⟨⟨2, ![N, 1]⟩, u2⟩, ⟨⟨2, ![N, 1]⟩, u3⟩] h j = u2 i :=
  concatenate_apply_piece (t := ⟨2, ![N, 4]⟩) 1 [⟨⟨2, ![N, 1]⟩, u0⟩, ⟨⟨2, ![N, 1]⟩, u1⟩, ⟨⟨2, ![N, 1]⟩, u2⟩, ⟨⟨2, ![N, 1]⟩, u3⟩] h j 2
    (by show 2 < 4; omega) ⟨2, ![N, 1]⟩ u2 rfl rfl 2 rfl i (rows_agree j i hi rfl)
    (by show 2 + (i 1).val = (j 1).val; rw [col_zero i, hj])

/-- Column 3 of the join is the fourth piece. -/
theorem concat_cols_apply3 (u0 u1 u2 u3 : (⟨2, ![N, 1]⟩ : Shape).Idx → α)
    (h : Shape.Concatenates [⟨2, ![N, 1]⟩, ⟨2, ![N, 1]⟩, ⟨2, ![N, 1]⟩, ⟨2, ![N, 1]⟩] ⟨2, ![N, 4]⟩ 1)
    (j : (⟨2, ![N, 4]⟩ : Shape).Idx) (i : (⟨2, ![N, 1]⟩ : Shape).Idx) (hj : (j 1).val = 3) (hi : (i 0).val = (j 0).val) :
    concatenate ⟨2, ![N, 4]⟩ 1 [⟨⟨2, ![N, 1]⟩, u0⟩, ⟨⟨2, ![N, 1]⟩, u1⟩, ⟨⟨2, ![N, 1]⟩, u2⟩, ⟨⟨2, ![N, 1]⟩, u3⟩] h j = u3 i :=
  concatenate_apply_piece (t := ⟨2, ![N, 4]⟩) 1 [⟨⟨2, ![N, 1]⟩, u0⟩, ⟨⟨2, ![N, 1]⟩, u1⟩, ⟨⟨2, ![N, 1]⟩, u2⟩, ⟨⟨2, ![N, 1]⟩, u3⟩] h j 3
    (by show 3 < 4; omega) ⟨2, ![N, 1]⟩ u3 rfl rfl 3 rfl i (rows_agree j i hi rfl)
    (by show 3 + (i 1).val = (j 1).val; rw [col_zero i, hj])

end Cert.LibConcatCols
-- ==== Proof.ReferenceValue.lean ====
/-
  The reference's two results, read entry by entry, are the pairwise box cost of PairCost.lean.

  The reference flattens the boxes to 131072 rows (row n = 16384 b + q is box (b, q)), turns every row and every
  target into centre-size form column by column, joins the four columns side by side, broadcasts boxes against
  targets into a 131072 x 512 x 4 array of |difference|s and sums its last axis starting from 0, then restores
  the [8, 16384, 512] shape. Read at entry (b, q, t) this is 0 + (d0 + d1 + d2 + d3) with d0..d3 the four distances
  of PairCost.costAt, which is the cost itself: 0 is neutral, and the sum over the four columns is taken in the same
  left-to-right order. No finiteness of the inputs is needed: the two sides are the same expression.
  The second result is the same function of the anchors: its text in the reference is the first result's, renamed.
-/
import proofs.«149050_j28140625723714_1_alg».proof.Proof.Gen.ReferenceIdeal.Read
import proofs.«149050_j28140625723714_1_alg».proof.Proof.PairCost
import proofs.«149050_j28140625723714_1_alg».proof.Proof.LibConcatCols
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.PairCost Cert.LibConcatCols

variable {F : FTy → Type} [FloatOps F]

/-! ## The targets: column k of the [512, 4] array, then centre-size form -/

section targets
variable (T : (⟨S512x4, .f32⟩ : BufTy).Contents (Elt F))

theorem tgt_col0 (i : S512.Idx) (t : Fin 512) (h : (i 0).val = t.val) : val_main_v3 (F := F) T i = T (ix2 t 0) := by
  rw [val_main_v3_apply, val_main_v2_apply]
  refine congrArg T (funext fun a => Fin.ext ?_)
  match a with
  | ⟨0, _⟩ => show (i 0).val / 1 = t.val; omega
  | ⟨1, _⟩ => rfl

theorem tgt_col1 (i : S512.Idx) (t : Fin 512) (h : (i 0).val = t.val) : val_main_v5 (F := F) T i = T (ix2 t 1) := by
  rw [val_main_v5_apply, val_main_v4_apply]
  refine congrArg T (funext fun a => Fin.ext ?_)
  match a with
  | ⟨0, _⟩ => show (i 0).val / 1 = t.val; omega
  | ⟨1, _⟩ => rfl

theorem tgt_col2 (i : S512.Idx) (t : Fin 512) (h : (i 0).val = t.val) : val_main_v7 (F := F) T i = T (ix2 t 2) := by
  rw [val_main_v7_apply, val_main_v6_apply]
  refine congrArg T (funext fun a => Fin.ext ?_)
  match a with
  | ⟨0, _⟩ => show (i 0).val / 1 = t.val; omega
  | ⟨1, _⟩ => rfl

theorem tgt_col3 (i : S512.Idx) (t : Fin 512) (h : (i 0).val = t.val) : val_main_v9 (F := F) T i = T (ix2 t 3) := by
  rw [val_main_v9_apply, val_main_v8_apply]
  refine congrArg T (funext fun a => Fin.ext ?_)
  match a with
  | ⟨0, _⟩ => show (i 0).val / 1 = t.val; omega
  | ⟨1, _⟩ => rfl

/-- The x-centre of target t. -/
theorem tgt_cx (i : S512.Idx) (t : Fin 512) (h : (i 0).val = t.val) :
    val_main_v12 (F := F) T i = mid (T (ix2 t 0)) (T (ix2 t 2)) := by
  rw [val_main_v12_apply, val_main_v10_apply, val_main_v11_apply, val_main_cst_apply, tgt_col0 T i t h, tgt_col2 T i t h]
  rfl

/-- The y-centre of target t. -/
theorem tgt_cy (i : S512.Idx) (t : Fin 512) (h : (i 0).val = t.val) :
    val_main_v15 (F := F) T i = mid (T (ix2 t 1)) (T (ix2 t 3)) := by
  rw [val_main_v15_apply, val_main_v13_apply, val_main_v14_apply, val_main_cst_0_apply, tgt_col1 T i t h, tgt_col3 T i t h]
  rfl

/-- The width of target t. -/
theorem tgt_w (i : S512.Idx) (t : Fin 512) (h : (i 0).val = t.val) :
    val_main_v16 (F := F) T i = ext (T (ix2 t 0)) (T (ix2 t 2)) := by
  rw [val_main_v16_apply, tgt_col0 T i t h, tgt_col2 T i t h]
  rfl

/-- The height of target t. -/
theorem tgt_h (i : S512.Idx) (t : Fin 512) (h : (i 0).val = t.val) :
    val_main_v17 (F := F) T i = ext (T (ix2 t 1)) (T (ix2 t 3)) := by
  rw [val_main_v17_apply, tgt_col1 T i t h, tgt_col3 T i t h]
  rfl

/-- The targets in centre-size form, the four columns joined: column 0 of row t is the x-centre, -/
theorem tgt_form0 (j : S512x4.Idx) (t : Fin 512) (h : (j 0).val = t.val) (hk : (j 1).val = 0) :
    val_main_v22 (F := F) T j = mid (T (ix2 t 0)) (T (ix2 t 2)) := by
  unfold val_main_v22
  refine (concat_cols_apply0 _ _ _ _ _ j (ix2 (j 0) 0) hk rfl).trans ?_
  rw [val_main_v18_apply]
  exact tgt_cx T _ t h

/-- column 1 the y-centre, -/
theorem tgt_form1 (j : S512x4.Idx) (t : Fin 512) (h : (j 0).val = t.val) (hk : (j 1).val = 1) :
    val_main_v22 (F := F) T j = mid (T (ix2 t 1)) (T (ix2 t 3)) := by
  unfold val_main_v22
  refine (concat_cols_apply1 _ _ _ _ _ j (ix2 (j 0) 0) hk rfl).trans ?_
  rw [val_main_v19_apply]
  exact tgt_cy T _ t h

/-- column 2 the width, -/
theorem tgt_form2 (j : S512x4.Idx) (t : Fin 512) (h : (j 0).val = t.val) (hk : (j 1).val = 2) :
    val_main_v22 (F := F) T j = ext (T (ix2 t 0)) (T (ix2 t 2)) := by
  unfold val_main_v22
  refine (concat_cols_apply2 _ _ _ _ _ j (ix2 (j 0) 0) hk rfl).trans ?_
  rw [val_main_v20_apply]
  exact tgt_w T _ t h

/-- column 3 the height. -/
theorem tgt_form3 (j : S512x4.Idx) (t : Fin 512) (h : (j 0).val = t.val) (hk : (j 1).val = 3) :
    val_main_v22 (F := F) T j = ext (T (ix2 t 1)) (T (ix2 t 3)) := by
  unfold val_main_v22
  refine (concat_cols_apply3 _ _ _ _ _ j (ix2 (j 0) 0) hk rfl).trans ?_
  rw [val_main_v21_apply]
  exact tgt_h T _ t h

end targets

/-! ## The boxes: row n = 16384 b + q of the flattened [131072, 4] array is box (b, q) -/

section boxes
variable (P : (⟨S8x16384x4, .f32⟩ : BufTy).Contents (Elt F))

theorem box_col0 (i : S131072.Idx) (b : Fin 8) (q : Fin 16384) (h : (i 0).val = 16384 * b.val + q.val) :
    val_main_v24 (F := F) P i = P (ix3 b q 0) := by
  rw [val_main_v24_apply, val_main_v23_apply, val_main_v0_apply]
  refine congrArg P (funext fun a => Fin.ext ?_)
  have hb : b.val < 8 := b.isLt
  have hq : q.val < 16384 := q.isLt
  match a with
  | ⟨0, _⟩ => show ((i 0).val / 1 * 4 + 0) / 65536 = b.val; omega
  | ⟨1, _⟩ => show ((i 0).val / 1 * 4 + 0) / 4 % 16384 = q.val; omega
  | ⟨2, _⟩ => show ((i 0).val / 1 * 4 + 0) % 4 = 0; omega

theorem box_col1 (i : S131072.Idx) (b : Fin 8) (q : Fin 16384) (h : (i 0).val = 16384 * b.val + q.val) :
    val_main_v26 (F := F) P i = P (ix3 b q 1) := by
  rw [val_main_v26_apply, val_main_v25_apply, val_main_v0_apply]
  refine congrArg P (funext fun a => Fin.ext ?_)
  have hb : b.val < 8 := b.isLt
  have hq : q.val < 16384 := q.isLt
  match a with
  | ⟨0, _⟩ => show ((i 0).val / 1 * 4 + 1) / 65536 = b.val; omega
  | ⟨1, _⟩ => show ((i 0).val / 1 * 4 + 1) / 4 % 16384 = q.val; omega
  | ⟨2, _⟩ => show ((i 0).val / 1 * 4 + 1) % 4 = 1; omega

theorem box_col2 (i : S131072.Idx) (b : Fin 8) (q : Fin 16384) (h : (i 0).val = 16384 * b.val + q.val) :
    val_main_v28 (F := F) P i = P (ix3 b q 2) := by
  rw [val_main_v28_apply, val_main_v27_apply, val_main_v0_apply]
  refine congrArg P (funext fun a => Fin.ext ?_)
  have hb : b.val < 8 := b.isLt
  have hq : q.val < 16384 := q.isLt
  match a with
  | ⟨0, _⟩ => show ((i 0).val / 1 * 4 + 2) / 65536 = b.val; omega
  | ⟨1, _⟩ => show ((i 0).val / 1 * 4 + 2) / 4 % 16384 = q.val; omega
  | ⟨2, _⟩ => show ((i 0).val / 1 * 4 + 2) % 4 = 2; omega

theorem box_col3 (i : S131072.Idx) (b : Fin 8) (q : Fin 16384) (h : (i 0).val = 16384 * b.val + q.val) :
    val_main_v30 (F := F) P i = P (ix3 b q 3) := by
  rw [val_main_v30_apply, val_main_v29_apply, val_main_v0_apply]
  refine congrArg P (funext fun a => Fin.ext ?_)
  have hb : b.val < 8 := b.isLt
  have hq : q.val < 16384 := q.isLt
  match a with
  | ⟨0, _⟩ => show ((i 0).val / 1 * 4 + 3) / 65536 = b.val; omega
  | ⟨1, _⟩ => show ((i 0).val / 1 * 4 + 3) / 4 % 16384 = q.val; omega
  | ⟨2, _⟩ => show ((i 0).val / 1 * 4 + 3) % 4 = 3; omega

/-- The x-centre of box (b, q). -/
theorem box_cx (i : S131072.Idx) (b : Fin 8) (q : Fin 16384) (h : (i 0).val = 16384 * b.val + q.val) :
    val_main_v33 (F := F) P i = mid (P (ix3 b q 0)) (P (ix3 b q 2)) := by
  rw [val_main_v33_apply, val_main_v31_apply, val_main_v32_apply, val_main_cst_1_apply, box_col0 P i b q h, box_col2 P i b q h]
  rfl

/-- The y-centre of box (b, q). -/
theorem box_cy (i : S131072.Idx) (b : Fin 8) (q : Fin 16384) (h : (i 0).val = 16384 * b.val + q.val) :
    val_main_v36 (F := F) P i = mid (P (ix3 b q 1)) (P (ix3 b q 3)) := by
  rw [val_main_v36_apply, val_main_v34_apply, val_main_v35_apply, val_main_cst_2_apply, box_col1 P i b q h, box_col3 P i b q h]
  rfl

/-- The width of box (b, q). -/
theorem box_w (i : S131072.Idx) (b : Fin 8) (q : Fin 16384) (h : (i 0).val = 16384 * b.val + q.val) :
    val_main_v37 (F := F) P i = ext (P (ix3 b q 0)) (P (ix3 b q 2)) := by
  rw [val_main_v37_apply, box_col0 P i b q h, box_col2 P i b q h]
  rfl

/-- The height of box (b, q). -/
theorem box_h (i : S131072.Idx) (b : Fin 8) (q : Fin 16384) (h : (i 0).val = 16384 * b.val + q.val) :
    val_main_v38 (F := F) P i = ext (P (ix3 b q 1)) (P (ix3 b q 3)) := by
  rw [val_main_v38_apply, box_col1 P i b q h, box_col3 P i b q h]
  rfl

/-- The boxes in centre-size form, the four columns joined: column 0 of row n is the x-centre, -/
theorem box_form0 (j : S131072x4.Idx) (b : Fin 8) (q : Fin 16384) (h : (j 0).val = 16384 * b.val + q.val) (hk : (j 1).val = 0) :
    val_main_v43 (F := F) P j = mid (P (ix3 b q 0)) (P (ix3 b q 2)) := by
  unfold val_main_v43
  refine (concat_cols_apply0 _ _ _ _ _ j (ix2 (j 0) 0) hk rfl).trans ?_
  rw [val_main_v39_apply]
  exact box_cx P _ b q h

/-- column 1 the y-centre, -/
theorem box_form1 (j : S131072x4.Idx) (b : Fin 8) (q : Fin 16384) (h : (j 0).val = 16384 * b.val + q.val) (hk : (j 1).val = 1) :
    val_main_v43 (F := F) P j = mid (P (ix3 b q 1)) (P (ix3 b q 3)) := by
  unfold val_main_v43
  refine (concat_cols_apply1 _ _ _ _ _ j (ix2 (j 0) 0) hk rfl).trans ?_
  rw [val_main_v40_apply]
  exact box_cy P _ b q h

/-- column 2 the width, -/
theorem box_form2 (j : S131072x4.Idx) (b : Fin 8) (q : Fin 16384) (h : (j 0).val = 16384 * b.val + q.val) (hk : (j 1).val = 2) :
    val_main_v43 (F := F) P j = ext (P (ix3 b q 0)) (P (ix3 b q 2)) := by
  unfold val_main_v43
  refine (concat_cols_apply2 _ _ _ _ _ j (ix2 (j 0) 0) hk rfl).trans ?_
  rw [val_main_v41_apply]
  exact box_w P _ b q h

/-- column 3 the height. -/
theorem box_form3 (j : S131072x4.Idx) (b : Fin 8) (q : Fin 16384) (h : (j 0).val = 16384 * b.val + q.val) (hk : (j 1).val = 3) :
    val_main_v43 (F := F) P j = ext (P (ix3 b q 1)) (P (ix3 b q 3)) := by
  unfold val_main_v43
  refine (concat_cols_apply3 _ _ _ _ _ j (ix2 (j 0) 0) hk rfl).trans ?_
  rw [val_main_v42_apply]
  exact box_h P _ b q h

end boxes

/-! ## The distances: the [131072, 512, 4] array of |box form - target form| -/

section distances
variable (P : (⟨S8x16384x4, .f32⟩ : BufTy).Contents (Elt Ideal)) (T : (⟨S512x4, .f32⟩ : BufTy).Contents (Elt Ideal))

theorem dist0 (j : S131072x512x4.Idx) (b : Fin 8) (q : Fin 16384) (t : Fin 512)
    (h0 : (j 0).val = 16384 * b.val + q.val) (h1 : (j 1).val = t.val) (h2 : (j 2).val = 0) :
    val_main_v49 (F := Ideal) P T j = gap (F := Ideal) (mid (F := Ideal) (P (ix3 b q 0)) (P (ix3 b q 2))) (mid (F := Ideal) (T (ix2 t 0)) (T (ix2 t 2))) := by
  rw [val_main_v49_apply, val_main_v48_apply, val_main_v46_apply, val_main_v44_apply, val_main_v47_apply, val_main_v45_apply,
    box_form0 P _ b q h0 h2, tgt_form0 T _ t h1 h2]
  rfl

theorem dist1 (j : S131072x512x4.Idx) (b : Fin 8) (q : Fin 16384) (t : Fin 512)
    (h0 : (j 0).val = 16384 * b.val + q.val) (h1 : (j 1).val = t.val) (h2 : (j 2).val = 1) :
    val_main_v49 (F := Ideal) P T j = gap (F := Ideal) (mid (F := Ideal) (P (ix3 b q 1)) (P (ix3 b q 3))) (mid (F := Ideal) (T (ix2 t 1)) (T (ix2 t 3))) := by
  rw [val_main_v49_apply, val_main_v48_apply, val_main_v46_apply, val_main_v44_apply, val_main_v47_apply, val_main_v45_apply,
    box_form1 P _ b q h0 h2, tgt_form1 T _ t h1 h2]
  rfl

theorem dist2 (j : S131072x512x4.Idx) (b : Fin 8) (q : Fin 16384) (t : Fin 512)
    (h0 : (j 0).val = 16384 * b.val + q.val) (h1 : (j 1).val = t.val) (h2 : (j 2).val = 2) :
    val_main_v49 (F := Ideal) P T j = gap (F := Ideal) (ext (F := Ideal) (P (ix3 b q 0)) (P (ix3 b q 2))) (ext (F := Ideal) (T (ix2 t 0)) (T (ix2 t 2))) := by
  rw [val_main_v49_apply, val_main_v48_apply, val_main_v46_apply, val_main_v44_apply, val_main_v47_apply, val_main_v45_apply,
    box_form2 P _ b q h0 h2, tgt_form2 T _ t h1 h2]
  rfl

theorem dist3 (j : S131072x512x4.Idx) (b : Fin 8) (q : Fin 16384) (t : Fin 512)
    (h0 : (j 0).val = 16384 * b.val + q.val) (h1 : (j 1).val = t.val) (h2 : (j 2).val = 3) :
    val_main_v49 (F := Ideal) P T j = gap (F := Ideal) (ext (F := Ideal) (P (ix3 b q 1)) (P (ix3 b q 3))) (ext (F := Ideal) (T (ix2 t 1)) (T (ix2 t 3))) := by
  rw [val_main_v49_apply, val_main_v48_apply, val_main_v46_apply, val_main_v44_apply, val_main_v47_apply, val_main_v45_apply,
    box_form3 P _ b q h0 h2, tgt_form3 T _ t h1 h2]
  rfl

/-! ## The results -/

/-- Row n of the summed array, restored to [8, 16384, 512]: entry (b, q, t) reads row 16384 b + q, column t. -/
theorem unflatten (i : S8x16384x512.Idx) :
    ((idx_main_v79 i) 0).val = 16384 * (i 0).val + (i 1).val ∧ ((idx_main_v79 i) 1).val = (i 2).val := by
  have h0 : (i 0).val < 8 := (i 0).isLt
  have h1 : (i 1).val < 16384 := (i 1).isLt
  have h2 : (i 2).val < 512 := (i 2).isLt
  constructor
  · show (((i 0).val * 16384 + (i 1).val) * 512 + (i 2).val) / 512 = 16384 * (i 0).val + (i 1).val; omega
  · show (((i 0).val * 16384 + (i 1).val) * 512 + (i 2).val) % 512 = (i 2).val; omega

/-- THE FIRST RESULT is the cost of the boxes against the targets: at each entry the reference's sum is
    0 + (d0 + d1 + d2 + d3), the four distances in the cost's own order. -/
theorem first_result : val_main_v79 (F := Ideal) P T = cost (F := Ideal) P T := by
  funext i
  obtain ⟨e0, e1⟩ := unflatten i
  rw [val_main_v79_apply, val_main_v50_apply, Fin.sum_univ_four,
    dist0 P T _ (i 0) (i 1) (i 2) e0 e1 rfl, dist1 P T _ (i 0) (i 1) (i 2) e0 e1 rfl,
    dist2 P T _ (i 0) (i 1) (i 2) e0 e1 rfl, dist3 P T _ (i 0) (i 1) (i 2) e0 e1 rfl,
    val_main_cst_3_apply, Ideal.ofBits_def, Ideal.ofBits_zero_f32, zero_add]
  rfl

/-- THE SECOND RESULT is the same function, of the anchors: the reference computes it by the same operations. -/
theorem second_result : val_main_v80 (F := Ideal) P T = cost (F := Ideal) P T :=
  (show val_main_v80 (F := Ideal) P T = val_main_v79 (F := Ideal) P T from rfl).trans (first_result P T)

end distances

end Cert.ReferenceIdeal.RefValue

end
-- ==== Proof.lean ====
/-
  The certificate of the pairwise box-cost kernel against its reference.

  Both programs compute, for 8 x 16384 boxes and 8 x 16384 anchors against 512 targets, the L1 distance between
  centre-size forms (PairCost.lean: `cost`). The kernel does it block by block over an 8 x 16 grid, 1024 boxes
  against all targets per point (KernelValue.lean: both result arrays end at `cost` of the arguments); the
  reference does it on the flattened arrays with a sum over the four coordinates (ReferenceValue.lean: both results
  are `cost` of the arguments). The two sides are the same expression of the inputs, entry by entry, so the
  equality needs no property of the inputs; the precondition is not used.
  The frames of the two kernel programs are the generated ones; the reference's frame is its generated run with the
  results dropped. The idealized kernel is the kernel's own text read over the extended reals, so the
  preservation claim is empty.
-/
import proofs.«149050_j28140625723714_1_alg».proof.Defs
import proofs.«149050_j28140625723714_1_alg».proof.Proof.Gen.Kernel
import proofs.«149050_j28140625723714_1_alg».proof.Proof.Gen.Kernel.Skeleton
import proofs.«149050_j28140625723714_1_alg».proof.Proof.Gen.Kernel.Launch
import proofs.«149050_j28140625723714_1_alg».proof.Proof.Gen.Kernel.Points
import proofs.«149050_j28140625723714_1_alg».proof.Proof.Gen.Kernel.Frame
import proofs.«149050_j28140625723714_1_alg».proof.Proof.Gen.KernelIdeal
import proofs.«149050_j28140625723714_1_alg».proof.Proof.Gen.KernelIdeal.Skeleton
import proofs.«149050_j28140625723714_1_alg».proof.Proof.Gen.KernelIdeal.Launch
import proofs.«149050_j28140625723714_1_alg».proof.Proof.Gen.KernelIdeal.Points
import proofs.«149050_j28140625723714_1_alg».proof.Proof.Gen.KernelIdeal.Frame
import proofs.«149050_j28140625723714_1_alg».proof.Proof.Gen.ReferenceIdeal
import proofs.«149050_j28140625723714_1_alg».proof.Proof.Gen.KernelIdeal.Value
import proofs.«149050_j28140625723714_1_alg».proof.Proof.Gen.ReferenceIdeal.Run
import proofs.«149050_j28140625723714_1_alg».proof.Proof.Gen.ReferenceIdeal.Read
import proofs.«149050_j28140625723714_1_alg».proof.Proof.Gen.Pre_finite_inputs
import proofs.«149050_j28140625723714_1_alg».proof.Proof.PairCost
import proofs.«149050_j28140625723714_1_alg».proof.Proof.KernelValue
import proofs.«149050_j28140625723714_1_alg».proof.Proof.ReferenceValue
import Idealize.ShloMosaic.Adequacy
import Idealize.ShloMosaic.Init

noncomputable section

namespace Cert.Proof

open Idealize.ShloMosaic Idealize.ShloMosaic.TcCoe Idealize.SL.Sem

section claims
variable [hK : Cert.Kernel.Facts] [hKI : Cert.KernelIdeal.Facts] [hRI : Cert.ReferenceIdeal.Facts] [hPre : Cert.Pre_finite_inputs.Facts]

/-- The printed kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- Over the extended reals the kernel's two results and the reference's two results are the cost arrays of the
    boxes and of the anchors against the targets, of arguments that agree. -/
theorem algebraic : Cert.algebraic_KernelIdeal_ReferenceIdeal := by
  intro m ρ m' ρ' _ hagree
  refine ⟨_, _, Cert.KernelIdeal.Hand.run (F := Ideal) m ρ, ?_⟩
  refine (θ_run Cert.ReferenceIdeal.defs _ _).mono (fun _ h c => ?_) (Cert.ReferenceIdeal.Value.run (F := Ideal) m' ρ')
  obtain ⟨a0, a1, a2⟩ := hagree c
  refine ⟨(h c).1.trans ?_, (h c).2.1.trans ?_, (h c).2.2⟩
  · rw [Cert.ReferenceIdeal.Read.val_main_v79_eq, Cert.ReferenceIdeal.RefValue.first_result, a0, a2]
  · rw [Cert.ReferenceIdeal.Read.val_main_v80_eq, Cert.ReferenceIdeal.RefValue.second_result, a1, a2]

end claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
